-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S6144x4096 : Shape := ⟨2, ![6144, 4096]⟩
abbrev S48x32 : Shape := ⟨2, ![48, 32]⟩
abbrev S6144 : Shape := ⟨1, ![6144]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S6144x4096 : S_.BroadcastsInDim S6144x4096 (![] : Fin 0 → Fin S6144x4096.rank)
  reducesTo_S6144x4096_S_d0_1 : S6144x4096.ReducesTo [0, 1] S_
  bcast_S_S48x32 : S_.BroadcastsInDim S48x32 (![] : Fin 0 → Fin S48x32.rank)
  reducesTo_S48x32_S_d0_1 : S48x32.ReducesTo [0, 1] S_
  bcast_S_S6144 : S_.BroadcastsInDim S6144 (![] : Fin 0 → Fin S6144.rank)
  reducesTo_S6144_S_d0 : S6144.ReducesTo [0] S_

variable [Facts]

def fn_part1 {F : FTy → Type} [FloatOps F] (main_v13 : IVec S_ 1) (main_v16 : IVec S6144 1) : IVec S_ 1 :=
  let main_c_5 : IVec S_ 1 := constantI S_ 1 1#1
  let main_v17 : IVec S_ 1 := (fun x v => Host.reduce IntOp.andi x v reducesTo_S6144_S_d0 h_S_) main_v16 main_c_5
  let main_v18 : IVec S_ 1 := andi main_v13 main_v17
  main_v18

def fn {F : FTy → Type} [FloatOps F] (main_arg0 : FVec F S4x2048x4096 .f32) (main_arg1 : FVec F S6144x4096 .f32) (main_arg2 : FVec F S48x32 .f32) (main_arg3 : FVec F S6144 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S6144x4096 .f32 := Host.absf main_arg1
  let main_cst_0 : FVec F S_ .f32 := constant S_ .f32 0x7F800000#32
  let main_v5 : FVec F S6144x4096 .f32 := broadcastInDim S6144x4096 ![] bcast_S_S6144x4096 main_cst_0
  let main_v6 : IVec S6144x4096 1 := cmpf .olt main_v4 main_v5
  let main_c_1 : IVec S_ 1 := constantI S_ 1 1#1
  let main_v7 : IVec S_ 1 := (fun x v => Host.reduce IntOp.andi x v reducesTo_S6144x4096_S_d0_1 h_S_) main_v6 main_c_1
  let main_v8 : IVec S_ 1 := andi main_v3 main_v7
  let main_v9 : FVec F S48x32 .f32 := Host.absf main_arg2
  let main_cst_2 : FVec F S_ .f32 := constant S_ .f32 0x7F800000#32
  let main_v10 : FVec F S48x32 .f32 := broadcastInDim S48x32 ![] bcast_S_S48x32 main_cst_2
  let main_v11 : IVec S48x32 1 := cmpf .olt main_v9 main_v10
  let main_c_3 : IVec S_ 1 := constantI S_ 1 1#1
  let main_v12 : IVec S_ 1 := (fun x v => Host.reduce IntOp.andi x v reducesTo_S48x32_S_d0_1 h_S_) main_v11 main_c_3
  let main_v13 : IVec S_ 1 := andi main_v8 main_v12
  let main_v14 : FVec F S6144 .f32 := Host.absf main_arg3
  let main_cst_4 : FVec F S_ .f32 := constant S_ .f32 0x7F800000#32
  let main_v15 : FVec F S6144 .f32 := broadcastInDim S6144 ![] bcast_S_S6144 main_cst_4
  let main_v16 : IVec S6144 1 := cmpf .olt main_v14 main_v15
  fn_part1 (F := F) main_v13 main_v16
-- ==== Kernel.lean ====
abbrev S4x2048x4096 : Shape := ⟨3, ![4, 2048, 4096]⟩
abbrev S6144x4096 : Shape := ⟨2, ![6144, 4096]⟩
abbrev S48x32 : Shape := ⟨2, ![48, 32]⟩
abbrev S6144 : Shape := ⟨1, ![6144]⟩
abbrev S8192x4096 : Shape := ⟨2, ![8192, 4096]⟩
abbrev S8192x6144 : Shape := ⟨2, ![8192, 6144]⟩
abbrev S1024x4096 : Shape := ⟨2, ![1024, 4096]⟩
abbrev S128x4096 : Shape := ⟨2, ![128, 4096]⟩
abbrev S128 : Shape := ⟨1, ![128]⟩
abbrev S1024x128 : Shape := ⟨2, ![1024, 128]⟩
abbrev S48x1 : Shape := ⟨2, ![48, 1]⟩
abbrev S32 : Shape := ⟨1, ![32]⟩
abbrev S1x32 : Shape := ⟨2, ![1, 32]⟩
abbrev S1x32x1 : Shape := ⟨3, ![1, 32, 1]⟩
abbrev S1x32x128 : Shape := ⟨3, ![1, 32, 128]⟩
abbrev S1x4096 : Shape := ⟨2, ![1, 4096]⟩
abbrev S1x128 : Shape := ⟨2, ![1, 128]⟩
abbrev S4x2048x6144 : Shape := ⟨3, ![4, 2048, 6144]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S6144x4096, .f32⟩
  | .hbm, ⟨2, _⟩ => ⟨S48x32, .f32⟩
  | .hbm, ⟨3, _⟩ => ⟨S6144, .f32⟩
  | .hbm, ⟨4, _⟩ => ⟨S8192x4096, .f32⟩
  | .hbm, ⟨5, _⟩ => ⟨S8192x4096, .bf16⟩
  | .hbm, ⟨6, _⟩ => ⟨S6144x4096, .bf16⟩
  | .hbm, ⟨7, _⟩ => ⟨S8192x6144, .f32⟩
  | .hbm, ⟨8, _⟩ => ⟨S4x2048x6144, .f32⟩
  | .local _ .vmem, ⟨0, _⟩ => ⟨S1024x4096, .bf16⟩
  | .local _ .vmem, ⟨1, _⟩ => ⟨S1024x4096, .bf16⟩
  | .local _ .vmem, ⟨2, _⟩ => ⟨S128x4096, .bf16⟩
  | .local _ .vmem, ⟨3, _⟩ => ⟨S128x4096, .bf16⟩
  | .local _ .vmem, ⟨4, _⟩ => ⟨S48x32, .f32⟩
  | .local _ .vmem, ⟨5, _⟩ => ⟨S128, .f32⟩
  | .local _ .vmem, ⟨6, _⟩ => ⟨S128, .f32⟩
  | .local _ .vmem, ⟨7, _⟩ => ⟨S1024x128, .f32⟩
  | .local _ .vmem, ⟨8, _⟩ => ⟨S1024x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S48x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  bitsLt_bf16_f32 : FTy.bits .bf16 < FTy.bits .f32
  iota_S48x1_d0_w32 : S48x1.Iotas .tc 32 [0]
  natLt_1_32 : 1 < 32
  inb_S48x32_S48x32_0_0 : ∀ a, (![0, 0] : Fin 2 → Nat) a + S48x32.size a ≤ S48x32.size a
  h_S48x32 : 0 < S48x32.numel
  broadcasts_S48x1_S48x32 : S48x1.Broadcasts S48x32
  reduces_S48x32_S32 : S48x32.Reduces [0] S32
  shapeCasts_S32_S1x32 : S32.ShapeCasts S1x32
  shapeCasts_S1x32_S1x32x1 : S1x32.ShapeCasts S1x32x1
  shapeCasts_S1x32x1_S1x32x1 : S1x32x1.ShapeCasts S1x32x1
  broadcasts_S1x32x1_S1x32x128 : S1x32x1.Broadcasts S1x32x128
  shapeCasts_S1x32x128_S1x4096 : S1x32x128.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S1x4096_S1x4096 : S1x4096.ShapeCasts S1x4096
  broadcasts_S1x4096_S128x4096 : S1x4096.Broadcasts S128x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S8192x6144_S4x2048x6144 : S8192x6144.ShapeCasts S4x2048x6144
  dot_S1024x4096_S128x4096_S1024x128_1_1_0_0_n_n_wf : DotDims.WF S1024x4096 S128x4096 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S6144x4096.size a
  hwx0_1 : ∀ i : grid0.Coords, EltTy.bits .bf16 = 32 ∨ (Rect.block (s := S6144x4096) S128x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x32.size a ≤ S48x32.size a
  hwx0_2 : ∀ i : grid0.Coords, EltTy.bits .f32 = 32 ∨ (Rect.block (s := S48x32) S48x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S6144.size a
  hwx0_3 : ∀ i : grid0.Coords, EltTy.bits .f32 = 32 ∨ (Rect.block (s := S6144) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x6144.size a
  hwx0_4 : ∀ i : grid0.Coords, EltTy.bits .f32 = 32 ∨ (Rect.block (s := S8192x6144) S1024x128.size (cc0_transform_4 i) (hinb0_4 i)).WholeWords (EltTy.packing .f32)

variable [Facts₀]

def dot_S1024x4096_S128x4096_S1024x128_1_1_0_0_n_n : DotDims S1024x4096 S128x4096 S1024x128 where
  lhsContracting := [1]
  rhsContracting := [1]
  lhsNonContracting := [0]
  rhsNonContracting := [0]
  lhsBatch := []
  rhsBatch := []
  wf := dot_S1024x4096_S128x4096_S1024x128_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S48x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S6144x4096 : Shape := ⟨2, ![6144, 4096]⟩
abbrev S48x32 : Shape := ⟨2, ![48, 32]⟩
abbrev S6144 : Shape := ⟨1, ![6144]⟩
abbrev S48x128x32 : Shape := ⟨3, ![48, 128, 32]⟩
abbrev S6144x32 : Shape := ⟨2, ![6144, 32]⟩
abbrev S6144x32x128 : Shape := ⟨3, ![6144, 32, 128]⟩
abbrev S4x2048x6144 : Shape := ⟨3, ![4, 2048, 6144]⟩
abbrev S1x1x6144 : Shape := ⟨3, ![1, 1, 6144]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S6144x4096, .f32⟩
  | .hbm, ⟨2, _⟩ => ⟨S48x32, .f32⟩
  | .hbm, ⟨3, _⟩ => ⟨S6144, .f32⟩
  | .hbm, ⟨4, _⟩ => ⟨S48x128x32, .f32⟩
  | .hbm, ⟨5, _⟩ => ⟨S6144x32, .f32⟩
  | .hbm, ⟨6, _⟩ => ⟨S6144x32x128, .f32⟩
  | .hbm, ⟨7, _⟩ => ⟨S6144x4096, .f32⟩
  | .hbm, ⟨8, _⟩ => ⟨S6144x4096, .f32⟩
  | .hbm, ⟨9, _⟩ => ⟨S4x2048x6144, .f32⟩
  | .hbm, ⟨10, _⟩ => ⟨S1x1x6144, .f32⟩
  | .hbm, ⟨11, _⟩ => ⟨S4x2048x6144, .f32⟩
  | .hbm, ⟨12, _⟩ => ⟨S4x2048x6144, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S48x32_S48x128x32_0_2 : S48x32.BroadcastsInDim S48x128x32 (![0, 2] : Fin 2 → Fin S48x128x32.rank)
  shapeCasts_S48x128x32_S6144x32 : S48x128x32.ShapeCasts S6144x32
  bcast_S6144x32_S6144x32x128_0_1 : S6144x32.BroadcastsInDim S6144x32x128 (![0, 1] : Fin 2 → Fin S6144x32x128.rank)
  shapeCasts_S6144x32x128_S6144x4096 : S6144x32x128.ShapeCasts S6144x4096
  bcast_S6144_S1x1x6144_2 : S6144.BroadcastsInDim S1x1x6144 (![2] : Fin 1 → Fin S1x1x6144.rank)
  bcast_S1x1x6144_S4x2048x6144_0_1_2 : S1x1x6144.BroadcastsInDim S4x2048x6144 (![0, 1, 2] : Fin 3 → Fin S4x2048x6144.rank)
  dot_S4x2048x4096_S6144x4096_S4x2048x6144_2_1_01_0_n_n_wf : DotDims.WF S4x2048x4096 S6144x4096 S4x2048x6144 [2] [1] [0, 1] [0] [] []

variable [Facts₀]

def dot_S4x2048x4096_S6144x4096_S4x2048x6144_2_1_01_0_n_n : DotDims S4x2048x4096 S6144x4096 S4x2048x6144 where
  lhsContracting := [2]
  rhsContracting := [1]
  lhsNonContracting := [0, 1]
  rhsNonContracting := [0]
  lhsBatch := []
  rhsBatch := []
  wf := dot_S4x2048x4096_S6144x4096_S4x2048x6144_2_1_01_0_n_n_wf

class Facts : Prop extends Facts₀ where

variable [Facts]
-- ==== Proof.Spec.lean ====
/-
  The function both programs compute, and the one law the kernel's arrangement needs.

  A linear layer whose weight is stored with one scale per 128 × 128 block:
      out[b, s, o] = (∑ k < 4096, x[b, s, k] · (w[o, k] · scale[o / 128, k / 128])) + bias[o]
  over x : [4, 2048, 4096], w : [6144, 4096], scale : [48, 32], bias : [6144], on the extended reals.
  Nothing here needs the inputs finite: the only law used beyond reading both sides at an index is that a sum of
  products with an indicator keeps one term, and on the extended reals anything times 0 is 0 and anything times 1
  is itself.
-/
import Idealize.ShloMosaic.Lib.ValueIdx
import Idealize.ShloMosaic.PureOps.Ideal

noncomputable section

namespace Cert.ScaledLinear

open Idealize.ShloMosaic Idealize.ShloMosaic.ValueIdx

/-- The column block (of width 128) an input feature lies in. -/
def colBlock (k : Fin 4096) : Fin 32 := ⟨k.val / 128, by have := k.isLt; omega⟩

/-- The row block (of height 128) an output feature lies in. -/
def rowBlock (o : Fin 6144) : Fin 48 := ⟨o.val / 128, by have := o.isLt; omega⟩

/-- The layer's result at batch `b`, position `s`, output feature `o`. -/
def scaledLinearAt (x : (⟨3, ![4, 2048, 4096]⟩ : Shape).Idx → EReal) (w : (⟨2, ![6144, 4096]⟩ : Shape).Idx → EReal)
    (sc : (⟨2, ![48, 32]⟩ : Shape).Idx → EReal) (bias : (⟨1, ![6144]⟩ : Shape).Idx → EReal)
    (b : Fin 4) (s : Fin 2048) (o : Fin 6144) : EReal :=
  (∑ k : Fin 4096, x (ix3 b s k) * (w (ix2 o k) * sc (ix2 (rowBlock o) (colBlock k)))) + bias (ix1 o)

/-- The layer's result as one array. -/
def scaledLinear (x : (⟨3, ![4, 2048, 4096]⟩ : Shape).Idx → EReal) (w : (⟨2, ![6144, 4096]⟩ : Shape).Idx → EReal)
    (sc : (⟨2, ![48, 32]⟩ : Shape).Idx → EReal) (bias : (⟨1, ![6144]⟩ : Shape).Idx → EReal) :
    (⟨3, ![4, 2048, 6144]⟩ : Shape).Idx → EReal :=
  fun i => scaledLinearAt x w sc bias (i 0) (i 1) (i 2)

/-- Selecting one term of a family by summing it against an indicator: `∑ r, f r · [r = j] = f j`. On the extended
    reals this holds for every `f`, infinite values included, because `a · 0 = 0` and `a · 1 = a` for all `a`. -/
theorem sum_mul_indicator {n : ℕ} (f g : Fin n → EReal) (j : Fin n) (hg : ∀ r, g r = if r = j then 1 else 0) :
    ∑ r, f r * g r = f j := by
  rw [Finset.sum_eq_single j (fun r _ hr => by rw [hg, if_neg hr, mul_zero]) (fun h => absurd (Finset.mem_univ j) h),
    hg, if_pos rfl, mul_one]

end Cert.ScaledLinear

end
-- ==== Proof.RefValue.lean ====
/-
  The reference, read at an index, is the block-scaled linear layer.

  The reference repeats each scale 128 times down the rows and 128 times along the columns (two broadcasts, each
  followed by a reshape that merges the new axis), multiplies the weight by the result, contracts the last axis of
  `x` with the last axis of the scaled weight, and adds the bias broadcast over batch and position. Read at
  (b, s, o) that is `(∑ k, x[b, s, k] · (w[o, k] · scale[o / 128, k / 128])) + bias[o]`: the only work is the
  arithmetic of the two merged axes, `(o · 4096 + k) / 128 % 32 = k / 128` and `(o · 32 + c) / 4096 = o / 128`.
-/
import proofs.«169020_j24988119728555_1_alg».proof.Proof.Gen.ReferenceIdeal.Read
import proofs.«169020_j24988119728555_1_alg».proof.Proof.Spec

noncomputable section

namespace Cert.ReferenceIdeal.RefValue

open Cert.ReferenceIdeal Cert.ReferenceIdeal.Read Cert.ScaledLinear
open Idealize.ShloMosaic Idealize.ShloMosaic.ValueIdx

/-- The scale the repeated table holds at weight position (o, k) is the scale of that position's block. -/
theorem repeated_scale_idx (o : Fin 6144) (k : Fin 4096) (j : S6144x4096.Idx) (h0 : (j 0).val = o.val) (h1 : (j 1).val = k.val) :
    idx_main_v0 (idx_main_v1 (idx_main_v2 (idx_main_v3 j))) = ix2 (rowBlock o) (colBlock k) := by
  have ho : o.val < 6144 := o.isLt
  have hk : k.val < 4096 := k.isLt
  funext a; apply Fin.ext
  match a with
  | ⟨0, _⟩ =>
    show (((j 0).val * 4096 + (j 1).val) / 4096 * 32 + ((j 0).val * 4096 + (j 1).val) / 128 % 32) / 4096 = o.val / 128
    rw [h0, h1]; omega
  | ⟨1, _⟩ =>
    show (((j 0).val * 4096 + (j 1).val) / 4096 * 32 + ((j 0).val * 4096 + (j 1).val) / 128 % 32) % 32 = k.val / 128
    rw [h0, h1]; omega

/-- The repeated scale table at weight position (o, k). -/
theorem repeated_scale_apply (sc : (⟨S48x32, .f32⟩ : BufTy).Contents (Elt Ideal)) (o : Fin 6144) (k : Fin 4096)
    (j : S6144x4096.Idx) (h0 : (j 0).val = o.val) (h1 : (j 1).val = k.val) :
    val_main_v3 (F := Ideal) sc j = sc (ix2 (rowBlock o) (colBlock k)) := by
  rw [val_main_v3_apply, val_main_v2_apply, val_main_v1_apply, val_main_v0_apply, repeated_scale_idx o k j h0 h1]

/-- The reference's result is the block-scaled linear layer of its four arguments. -/
theorem result_eq (x : (⟨S4x2048x4096, .f32⟩ : BufTy).Contents (Elt Ideal)) (w : (⟨S6144x4096, .f32⟩ : BufTy).Contents (Elt Ideal))
    (sc : (⟨S48x32, .f32⟩ : BufTy).Contents (Elt Ideal)) (bias : (⟨S6144, .f32⟩ : BufTy).Contents (Elt Ideal)) :
    val_main_v8 (F := Ideal) x w sc bias = scaledLinear x w sc bias := by
  funext i
  obtain ⟨b, s, o, rfl⟩ : ∃ (b : Fin 4) (s : Fin 2048) (o : Fin 6144), i = ix3 b s o := ⟨i 0, i 1, i 2, eq_ix3 i⟩
  rw [val_main_v8_apply, val_main_v5_apply, val_main_v7_apply, val_main_v6_apply]
  show (∑ k : Fin 4096, x (lidx_main_v5 (ix3 b s o) k) * val_main_v4 (F := Ideal) w sc (ridx_main_v5 (ix3 b s o) k))
      + bias (idx_main_v6 (idx_main_v7 (ix3 b s o))) = scaledLinearAt x w sc bias b s o
  unfold scaledLinearAt
  have hb : idx_main_v6 (idx_main_v7 (ix3 b s o)) = ix1 o := funext fun a => Fin.ext (by match a with | ⟨0, _⟩ => rfl)
  rw [hb]
  refine congrArg (· + bias (ix1 o)) (Finset.sum_congr rfl fun k _ => ?_)
  have hl : lidx_main_v5 (ix3 b s o) k = ix3 b s k := funext fun a => Fin.ext (by
    match a with | ⟨0, _⟩ => rfl | ⟨1, _⟩ => rfl | ⟨2, _⟩ => rfl)
  have hr : ridx_main_v5 (ix3 b s o) k = ix2 o k := funext fun a => Fin.ext (by
    match a with | ⟨0, _⟩ => rfl | ⟨1, _⟩ => rfl)
  rw [hl, hr, val_main_v4_apply, repeated_scale_apply sc o k (ix2 o k) rfl rfl]
  rfl

end Cert.ReferenceIdeal.RefValue

end
-- ==== Proof.Payload.lean ====
/-
  What one grid point of the kernel stores, read at an element.

  At grid point (i, j) the body holds a [1024, 4096] block of `x`, the [128, 4096] block of `w` whose rows are the
  output features of row block `j`, the whole [48, 32] scale table and 128 biases. It picks row `j` of the table by
  summing the table against the indicator of row `j` (an iota down the rows compared with `j`), repeats each of the
  32 selected scales 128 times along a row of 4096, multiplies the weight block by that row, contracts the last axis
  of the `x` block with the last axis of the scaled weight block, and adds the biases along the columns. So at (p, q):
      (∑ k < 4096, xblk[p, k] · (wblk[q, k] · scale[j, k / 128])) + bias[q].
  The changes of float format on the way are the identity on the extended reals.
-/
import proofs.«169020_j24988119728555_1_alg».proof.Proof.Gen.KernelIdeal.Skeleton
import proofs.«169020_j24988119728555_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Cert.ScaledLinear
open Idealize.ShloMosaic Idealize.ShloMosaic.ValueIdx

/-! ## The indicator of the tile's row of the scale table -/

/-- Two row numbers below 48 are the same 32-bit word only when they are the same number. -/
theorem ofNat32_eq_iff (a b : ℕ) (ha : a < 48) (hb : b < 48) : BitVec.ofNat 32 a = BitVec.ofNat 32 b ↔ a = b := by
  constructor
  · intro h
    have := congrArg BitVec.toNat h
    simp only [BitVec.toNat_ofNat] at this
    omega
  · rintro rfl; rfl

/-- The iota down the 48 rows compared with the tile's row `j`, widened and converted to a float, is 1 on row `j`
    and 0 on every other row. -/
theorem indicator_apply (j r : Fin 48) (u : Fin 1) (h : S48x1.Iotas .tc 32 [0]) (h' : 1 < 32) :
    (sitofp (F := Ideal) .f32 (extui 32 (cmpi .eq (iota .tc S48x1 32 [0] h) (broadcast S48x1 (BitVec.ofNat 32 j.val))) h') : FVec Ideal S48x1 .f32) (ix2 r u)
      = if r = j then 1 else 0 := by
  show (((((IntOp.cmpi .eq (iota .tc S48x1 32 [0] h (ix2 r u)) (BitVec.ofNat 32 j.val)).setWidth 32).toInt : ℝ) : EReal)) = _
  rw [iota_single_apply]
  show (((((IntOp.cmpi .eq (BitVec.ofNat 32 r.val) (BitVec.ofNat 32 j.val)).setWidth 32).toInt : ℝ) : EReal)) = _
  by_cases hrj : r = j
  · subst hrj
    rw [if_pos rfl]
    have e : IntOp.cmpi .eq (BitVec.ofNat 32 r.val) (BitVec.ofNat 32 r.val) = 1#1 := by simp [IntOp.cmpi]
    rw [e]
    have e' : ((1#1 : BitVec 1).setWidth 32).toInt = 1 := by decide
    rw [e']; simp
  · rw [if_neg hrj]
    have hne : BitVec.ofNat 32 r.val ≠ BitVec.ofNat 32 j.val :=
      fun h => hrj (Fin.ext ((ofNat32_eq_iff _ _ r.isLt j.isLt).mp h))
    have e : IntOp.cmpi .eq (BitVec.ofNat 32 r.val) (BitVec.ofNat 32 j.val) = 0#1 := by
      show BitVec.ofBool (BitVec.ofNat 32 r.val == BitVec.ofNat 32 j.val) = 0#1
      rw [beq_eq_false_iff_ne.mpr hne]; rfl
    rw [e]
    have e' : ((0#1 : BitVec 1).setWidth 32).toInt = 0 := by decide
    rw [e']; simp

/-! ## The tile's scale row -/

/-- Row `j` of the scale table, as the kernel selects it: the table times the indicator of row `j` (one column,
    repeated along the 32 columns), summed down the rows. -/
theorem selected_apply (j : Fin 48) (sc : FVec Ideal S48x32 .f32) (c : Fin 32)
    (hi : S48x1.Iotas .tc 32 [0]) (hw : 1 < 32) (hb : S48x1.Broadcasts S48x32) (hr : S48x32.Reduces [0] S32)
    (hφ : FKind.Formats .f32) (hacc : (0x00000000#32 : BitVec 32) = FKind.add.neutral .f32 hφ) :
    multiReduction .add [0] S32 (mulf sc (broadcastTo S48x32 (sitofp (F := Ideal) .f32 (extui 32 (cmpi .eq (iota .tc S48x1 32 [0] hi) (broadcast S48x1 (BitVec.ofNat 32 j.val))) hw)) hb)) 0x00000000#32 hr hφ hacc (ix1 c)
      = sc (ix2 j c) := by
  refine (Ideal.multiReduction_add_single _ 0x00000000#32 hr hφ hacc (ix1 c)).trans ?_
  show ∑ r : Fin 48, (mulf sc (broadcastTo S48x32 (sitofp (F := Ideal) .f32 (extui 32 (cmpi .eq (iota .tc S48x1 32 [0] hi) (broadcast S48x1 (BitVec.ofNat 32 j.val))) hw)) hb)) (hr.lift (ix1 c) r) = _
  have hl : ∀ r : Fin 48, hr.lift (ix1 c) r = ix2 r c := fun r => funext fun a => Fin.ext (by
    match a with | ⟨0, _⟩ => rfl | ⟨1, _⟩ => rfl)
  refine (Finset.sum_congr rfl fun r _ => ?_).trans
    (sum_mul_indicator (fun r => sc (ix2 r c)) (fun r => if r = j then 1 else 0) j (fun _ => rfl))
  rw [hl r, mulf_apply]
  refine congrArg (sc (ix2 r c) * ·) ?_
  refine (broadcastTo_apply _ hb (ix2 r c) (ix2 r (0 : Fin 1)) fun a => ?_).trans (indicator_apply j r 0 hi hw)
  match a with
  | ⟨0, _⟩ => rfl
  | ⟨1, _⟩ => rfl

/-- A row of 32 scales with each repeated 128 times along a row of 4096 ([32] → [1, 32] → [1, 32, 1] → broadcast to
    [1, 32, 128] → [1, 4096]): position `k` holds the scale of column block `k / 128`. -/
theorem repeated_apply (v : FVec Ideal S32 .f32) (u : Fin 1) (k : Fin 4096)
    (h1 : S32.ShapeCasts S1x32) (h2 : S1x32.ShapeCasts S1x32x1) (h3 : S1x32x1.ShapeCasts S1x32x1)
    (h4 : S1x32x1.Broadcasts S1x32x128) (h5 : S1x32x128.ShapeCasts S1x4096) (h6 : S1x4096.ShapeCasts S1x4096) :
    shapeCast S1x4096 (shapeCast S1x4096 (broadcastTo S1x32x128 (shapeCast S1x32x1 (shapeCast S1x32x1 (shapeCast S1x32 v h1) h2) h3) h4) h5) h6 (ix2 u k)
      = v (ix1 (colBlock k)) := by
  have hk : k.val < 4096 := k.isLt
  have hu : u.val = 0 := by omega
  rw [shapeCast_self]
  refine (shapeCast_apply _ h5 (ix2 u k) (ix3 (0 : Fin 1) (colBlock k) (⟨k.val % 128, Nat.mod_lt _ (by decide)⟩ : Fin 128)) ?_).trans ?_
  · rw [Shape.rowMajor_val_three, Shape.rowMajor_val_two]
    show (0 * 32 + k.val / 128) * 128 + k.val % 128 = u.val * 4096 + k.val
    omega
  refine (broadcastTo_apply _ h4 _ (ix3 (0 : Fin 1) (colBlock k) (0 : Fin 1)) fun a => ?_).trans ?_
  · match a with
    | ⟨0, _⟩ => rfl
    | ⟨1, _⟩ => rfl
    | ⟨2, _⟩ => rfl
  rw [shapeCast_self]
  refine (shapeCast_apply _ h2 _ (ix2 (0 : Fin 1) (colBlock k)) ?_).trans (shapeCast_a_1a_apply v h1 0 (colBlock k))
  rw [Shape.rowMajor_val_three, Shape.rowMajor_val_two]
  show 0 * 32 + k.val / 128 = (0 * 32 + k.val / 128) * 1 + 0
  omega

/-! ## The contraction -/

theorem lhs_dot_0 (i : S1024x128.Idx) (q : dot_S1024x4096_S128x4096_S1024x128_1_1_0_0_n_n.contr.Idx) :
    (dot_S1024x4096_S128x4096_S1024x128_1_1_0_0_n_n.lhsIdx i q 0).val = (i 0).val := by
  unfold DotDims.lhsIdx
  rw [dif_neg (show ¬(0 : Fin S1024x4096.rank) ∈ dot_S1024x4096_S128x4096_S1024x128_1_1_0_0_n_n.lhsBatch by decide), dif_pos (show (0 : Fin S1024x4096.rank) ∈ dot_S1024x4096_S128x4096_S1024x128_1_1_0_0_n_n.lhsNonContracting by decide)]
  rfl
theorem lhs_dot_1 (i : S1024x128.Idx) (q : dot_S1024x4096_S128x4096_S1024x128_1_1_0_0_n_n.contr.Idx) :
    (dot_S1024x4096_S128x4096_S1024x128_1_1_0_0_n_n.lhsIdx i q 1).val = (q ⟨0, by decide⟩).val :=
  dot_S1024x4096_S128x4096_S1024x128_1_1_0_0_n_n.lhsIdx_val_of_single rfl i q
theorem rhs_dot_0 (i : S1024x128.Idx) (q : dot_S1024x4096_S128x4096_S1024x128_1_1_0_0_n_n.contr.Idx) :
    (dot_S1024x4096_S128x4096_S1024x128_1_1_0_0_n_n.rhsIdx i q 0).val = (i 1).val := by
  unfold DotDims.rhsIdx
  rw [dif_neg (show ¬(0 : Fin S128x4096.rank) ∈ dot_S1024x4096_S128x4096_S1024x128_1_1_0_0_n_n.rhsBatch by decide), dif_pos (show (0 : Fin S128x4096.rank) ∈ dot_S1024x4096_S128x4096_S1024x128_1_1_0_0_n_n.rhsNonContracting by decide)]
  rfl
theorem rhs_dot_1 (i : S1024x128.Idx) (q : dot_S1024x4096_S128x4096_S1024x128_1_1_0_0_n_n.contr.Idx) :
    (dot_S1024x4096_S128x4096_S1024x128_1_1_0_0_n_n.rhsIdx i q 1).val = (q ⟨0, by decide⟩).val :=
  dot_S1024x4096_S128x4096_S1024x128_1_1_0_0_n_n.rhsIdx_val_of_single rfl i q

/-- The tile product into a zero accumulator, at (p, q): row `p` of the left block against row `q` of the right
    block, both contracted on their last axis. -/
theorem matmul_tile_apply (l : FVec Ideal S1024x4096 .bf16) (r : FVec Ideal S128x4096 .bf16) (p : Fin 1024) (q : Fin 128) :
    matmul dot_S1024x4096_S128x4096_S1024x128_1_1_0_0_n_n none l r (constant (F := Ideal) S1024x128 .f32 0x00000000#32) (ix2 p q)
      = ∑ k : Fin 4096, l (ix2 p k) * r (ix2 q k) := by
  simp only [matmul]
  rw [Ideal.matmul_constant_zero_apply, ← Equiv.sum_comp (contrEquiv1 dot_S1024x4096_S128x4096_S1024x128_1_1_0_0_n_n 4096 rfl rfl).symm]
  refine Finset.sum_congr rfl fun k _ => ?_
  have hk := contrEquiv1_symm_val dot_S1024x4096_S128x4096_S1024x128_1_1_0_0_n_n 4096 rfl rfl k
  have el : dot_S1024x4096_S128x4096_S1024x128_1_1_0_0_n_n.lhsIdx (ix2 p q) ((contrEquiv1 dot_S1024x4096_S128x4096_S1024x128_1_1_0_0_n_n 4096 rfl rfl).symm k) = ix2 p k := funext fun a => Fin.ext (by
    match a with
    | ⟨0, _⟩ => exact lhs_dot_0 _ _
    | ⟨1, _⟩ => exact (lhs_dot_1 _ _).trans hk)
  have er : dot_S1024x4096_S128x4096_S1024x128_1_1_0_0_n_n.rhsIdx (ix2 p q) ((contrEquiv1 dot_S1024x4096_S128x4096_S1024x128_1_1_0_0_n_n 4096 rfl rfl).symm k) = ix2 q k := funext fun a => Fin.ext (by
    match a with
    | ⟨0, _⟩ => exact rhs_dot_0 _ _
    | ⟨1, _⟩ => exact (rhs_dot_1 _ _).trans hk)
  rw [el, er]

/-! ## The stored value at an element -/

/-- The body's arithmetic after the scale row `E` ([1, 4096]) has been made: the weight block times `E` repeated
    down its 128 rows, contracted with the `x` block, plus the biases repeated down the 1024 rows. -/
theorem tile_apply (xb : FVec Ideal S1024x4096 .bf16) (wb : FVec Ideal S128x4096 .bf16) (bb : FVec Ideal S128 .f32)
    (E : FVec Ideal S1x4096 .f32)
    (g1 : S1024x4096.ShapeCasts S1024x4096) (g2 : S128x4096.ShapeCasts S128x4096) (g3 : FTy.bits .bf16 < FTy.bits .f32)
    (g4 : S1x4096.Broadcasts S128x4096) (g6 : S128.ShapeCasts S1x128) (g7 : S1x128.Broadcasts S1024x128)
    (p : Fin 1024) (q : Fin 128) :
    addf (matmul dot_S1024x4096_S128x4096_S1024x128_1_1_0_0_n_n none (shapeCast S1024x4096 xb g1)
        (truncf .bf16 (mulf (extf .f32 (shapeCast S128x4096 wb g2) g3) (broadcastTo S128x4096 E g4)) g3)
        (constant (F := Ideal) S1024x128 .f32 0x00000000#32))
      (broadcastTo S1024x128 (shapeCast S1x128 bb g6) g7) (ix2 p q)
      = (∑ k : Fin 4096, xb (ix2 p k) * (wb (ix2 q k) * E (ix2 (0 : Fin 1) k))) + bb (ix1 q) := by
  have hm := matmul_tile_apply (shapeCast S1024x4096 xb g1)
    (truncf .bf16 (mulf (extf .f32 (shapeCast S128x4096 wb g2) g3) (broadcastTo S128x4096 E g4)) g3) p q
  have hb : (broadcastTo S1024x128 (shapeCast S1x128 bb g6) g7) (ix2 p q) = bb (ix1 q) :=
    (broadcastTo_1b_ab_apply _ g7 p q).trans (shapeCast_a_1a_apply bb g6 0 q)
  refine (congrArg₂ (· + ·) hm hb).trans ?_
  refine congrArg (· + bb (ix1 q)) (Finset.sum_congr rfl fun k _ => ?_)
  rw [shapeCast_self, truncf_apply, mulf_apply, extf_apply, shapeCast_self, broadcastTo_1b_ab_apply E g4 q k]

/-- WHAT THE BODY STORES at (p, q) when it runs at a grid point whose second coordinate is `j`. -/
theorem pay_apply (i : grid0.Coords) (j : Fin 48) (hj : (i 1).val = j.val)
    (sc : FVec Ideal S48x32 .f32) (wb : FVec Ideal S128x4096 .bf16) (xb : FVec Ideal S1024x4096 .bf16) (bb : FVec Ideal S128 .f32)
    (p : Fin 1024) (q : Fin 128) :
    k0_pay1 (F := Ideal) i sc wb xb bb (ix2 p q)
      = (∑ k : Fin 4096, xb (ix2 p k) * (wb (ix2 q k) * sc (ix2 j (colBlock k)))) + bb (ix1 q) := by
  unfold k0_pay1
  refine (tile_apply xb wb bb _ _ _ _ _ _ _ p q).trans ?_
  refine congrArg (· + bb (ix1 q)) (Finset.sum_congr rfl fun k _ => ?_)
  refine congrArg (fun z => xb (ix2 p k) * (wb (ix2 q k) * z)) ?_
  refine (repeated_apply _ 0 k _ _ _ _ _ _).trans ?_
  rw [hj]
  exact selected_apply j sc (colBlock k) _ _ _ _ _ _

end Cert.KernelIdeal.Pay

end
-- ==== Proof.KernelValue.lean ====
/-
  The kernel's result array, as one function of its arguments.

  The host merges batch and position of `x` into 8192 rows; the grid is 8 × 48, and point (a, j) owns the output tile
  of rows `a · 1024 …` and output features `j · 128 …`. Its `x` block is rows `a · 1024 …` of the merged `x`, its
  weight block rows `j · 128 …` of `w`, its biases entries `j · 128 …`, and it sees the whole scale table. Every
  feature `o = j · 128 + q` of the tile has `o / 128 = j`, so the one table row the body selects is the right row for
  the whole tile (`tile_eq`), and what the point writes back is its block of
      T[r, o] = (∑ k, X[r, k] · (W[o, k] · scale[o / 128, k / 128])) + bias[o]           (`flushed_eq`).
  The 384 blocks tile the [8192, 6144] array — index (r, o) lies in the block of point (r / 1024, o / 128) — so the
  array ends as `T` (`final`). The host then splits the rows: entry (b, s, o) is `T[b · 2048 + s, o]`, and row
  `b · 2048 + s` of the merged `x` is `x[b, s, ·]` (`result_eq`).
-/
import proofs.«169020_j24988119728555_1_alg».proof.Proof.KernelIdealFrame
import proofs.«169020_j24988119728555_1_alg».proof.Proof.Payload
import Idealize.ShloMosaic.Lib.StableHlo.Run

noncomputable section

namespace Cert.KernelIdeal.KValue

open Cert.KernelIdeal Cert.KernelIdeal.Gen Cert.KernelIdeal.GenP Cert.KernelIdeal.Pay Cert.ScaledLinear
open Idealize.ShloMosaic Idealize.ShloMosaic.TcCoe Idealize.ShloMosaic.ValueIdx Idealize.SL.Sem
open Idealize.ShloMosaic.Pipeline (Dat)

/-! ## The result with batch and position merged -/

/-- The layer over the 8192 merged rows, at row `r` and output feature `o`. -/
def tiledAt (X : FVec Ideal S8192x4096 .bf16) (W : FVec Ideal S6144x4096 .bf16) (sc : FVec Ideal S48x32 .f32)
    (B : FVec Ideal S6144 .f32) (r : Fin 8192) (o : Fin 6144) : EReal :=
  (∑ k : Fin 4096, X (ix2 r k) * (W (ix2 o k) * sc (ix2 (rowBlock o) (colBlock k)))) + B (ix1 o)

/-- The same as one [8192, 6144] array. -/
def tiled (X : FVec Ideal S8192x4096 .bf16) (W : FVec Ideal S6144x4096 .bf16) (sc : FVec Ideal S48x32 .f32)
    (B : FVec Ideal S6144 .f32) : FVec Ideal S8192x6144 .f32 :=
  fun i => tiledAt X W sc B (i 0) (i 1)

/-- ONE TILE. At a grid point whose blocks are rows `a · 1024 …` of `X`, rows `j · 128 …` of `W` and entries
    `j · 128 …` of `B`, what the body stores at (p, q) is the layer at row `a · 1024 + p`, feature `j · 128 + q`:
    every feature of the tile lies in row block `j` of the scale table. -/
theorem tile_eq (X : FVec Ideal S8192x4096 .bf16) (W : FVec Ideal S6144x4096 .bf16) (sc : FVec Ideal S48x32 .f32)
    (B : FVec Ideal S6144 .f32) (i : grid0.Coords) (j : Fin 48) (hj : (i 1).val = j.val)
    (xb : FVec Ideal S1024x4096 .bf16) (wb : FVec Ideal S128x4096 .bf16) (sb : FVec Ideal S48x32 .f32) (bb : FVec Ideal S128 .f32)
    (p : Fin 1024) (q : Fin 128) (r : Fin 8192) (o : Fin 6144) (ho : o.val = j.val * 128 + q.val)
    (hxb : ∀ k : Fin 4096, xb (ix2 p k) = X (ix2 r k))
    (hwb : ∀ k : Fin 4096, wb (ix2 q k) = W (ix2 o k))
    (hsb : ∀ k : Fin 4096, sb (ix2 j (colBlock k)) = sc (ix2 j (colBlock k)))
    (hbb : bb (ix1 q) = B (ix1 o)) :
    k0_pay1 (F := Ideal) i sb wb xb bb (ix2 p q) = tiledAt X W sc B r o := by
  rw [pay_apply i j hj sb wb xb bb p q, hbb]
  unfold tiledAt
  have hrb : rowBlock o = j := Fin.ext (by
    show o.val / 128 = j.val
    have := q.isLt; omega)
  rw [hrb]
  exact congrArg (· + B (ix1 o)) (Finset.sum_congr rfl fun k _ => by rw [hxb k, hwb k, hsb k])

variable (m : (ℓ : Loc nD τ sig) → Buf (Elt Ideal) ℓ) (ρ : Dev nD → PrngReg)

/-! ## The arrays the region finds -/

/-- The four arrays the region reads — the merged `x`, the weight, the scale table, the biases — as the region finds them. -/
abbrev xarr (c : Dev nD) : FVec Ideal S8192x4096 .bf16 := V m c main_v1
abbrev warr (c : Dev nD) : FVec Ideal S6144x4096 .bf16 := V m c main_v2
abbrev sarr (c : Dev nD) : FVec Ideal S48x32 .f32 := V m c main_arg2
abbrev barr (c : Dev nD) : FVec Ideal S6144 .f32 := V m c main_arg3

theorem hz2 : (![0, 0] : Fin 2 → Nat) = fun _ => 0 := funext fun a => by fin_cases a <;> rfl
theorem hz1 : (![0] : Fin 1 → Nat) = fun _ => 0 := funext fun a => by fin_cases a; rfl

/-! ## The grid's index maps, in closed form -/

/-- Grid point `t` is (t / 48, t % 48): the `x` block moves with the first coordinate, the weight block and the
    biases with the second, the scale table not at all, the output block with both. Decided over the 384 points. -/
theorem idx_facts : ∀ t : Fin cfg0.N,
    win0_4.index t (0 : Fin 2) = t.val / 48 ∧ win0_4.index t (1 : Fin 2) = t.val % 48
    ∧ win0_0.index t (0 : Fin 2) = t.val / 48 ∧ win0_0.index t (1 : Fin 2) = 0
    ∧ win0_1.index t (0 : Fin 2) = t.val % 48 ∧ win0_1.index t (1 : Fin 2) = 0
    ∧ win0_2.index t (0 : Fin 2) = 0 ∧ win0_2.index t (1 : Fin 2) = 0
    ∧ win0_3.index t (0 : Fin 1) = t.val % 48
    ∧ (grid0.coords t (1 : Fin 2)).val = t.val % 48 :=
  (by decide +kernel : ∀ t : Fin grid0.N, _)

/-! ## What a grid point writes back -/

/-- WHAT POINT `t` WRITES BACK is block `t` of the layer over the merged rows, of the arrays as the region finds them. -/
theorem flushed_eq (c : Dev nD) (t : Fin cfg0.N) :
    (dats m 0 c).flushed 4 t = ((cfg0.win 4).blk t).view.read (Elt Ideal) (tiled (xarr m c) (warr m c) (sarr m c) (barr m c)) := by
  show (cfg0.win 4).cut (grid0.coords t) ((dats m 0 c).after 4 t) = _
  rw [after0_4]
  unfold out0_4
  rw [View.canon_unit_zero hz2]
  simp only [View.ld_unit_zero (S := S48x32) hz2, View.ld_unit_zero (S := S128x4096) hz2, View.ld_unit_zero (S := S1024x4096) hz2, View.ld_unit_zero (S := S128) hz1]
  funext y
  obtain ⟨e40, e41, e00, e01, e10, e11, e20, e21, e30, ec1⟩ := idx_facts t
  have hN : grid0.N = 384 := N_0
  have ht : t.val < 384 := hN ▸ t.isLt
  have hy0 : (y 0).val < 1024 := (y 0).isLt
  have hy1 : (y 1).val < 128 := (y 1).isLt
  obtain ⟨p, hp⟩ : ∃ p : Fin 1024, p.val = (y 0).val := ⟨⟨_, hy0⟩, rfl⟩
  obtain ⟨q, hq⟩ : ∃ q : Fin 128, q.val = (y 1).val := ⟨⟨_, hy1⟩, rfl⟩
  obtain ⟨j, hj⟩ : ∃ j : Fin 48, j.val = t.val % 48 := ⟨⟨_, Nat.mod_lt _ (by decide)⟩, rfl⟩
  obtain ⟨r, hr⟩ : ∃ r : Fin 8192, r.val = t.val / 48 * 1024 + (y 0).val := ⟨⟨_, by omega⟩, rfl⟩
  obtain ⟨o, ho⟩ : ∃ o : Fin 6144, o.val = t.val % 48 * 128 + (y 1).val := ⟨⟨_, by omega⟩, rfl⟩
  have hx : (win0 4).xinj (grid0.coords t) y = ix2 p q := funext fun a => Fin.ext (by
    match a with
    | ⟨0, _⟩ => exact hp.symm
    | ⟨1, _⟩ => exact hq.symm)
  have he : ((View.whole main_v3).slice ((win0 4).rect t)).emb y = ix2 r o := funext fun a => Fin.ext (by
    match a with
    | ⟨0, _⟩ => show win0_4.index t (0 : Fin 2) * 1024 + 1 * (y 0).val = r.val; omega
    | ⟨1, _⟩ => show win0_4.index t (1 : Fin 2) * 128 + 1 * (y 1).val = o.val; omega)
  show k0_pay1 (F := Ideal) (grid0.coords t) (iblk m c 2 t) (iblk m c 1 t) (iblk m c 0 t) (iblk m c 3 t) ((win0 4).xinj (grid0.coords t) y)
      = tiled (xarr m c) (warr m c) (sarr m c) (barr m c) (((View.whole main_v3).slice ((win0 4).rect t)).emb y)
  rw [hx, he]
  show _ = tiledAt (xarr m c) (warr m c) (sarr m c) (barr m c) r o
  refine tile_eq (xarr m c) (warr m c) (sarr m c) (barr m c) (grid0.coords t) j (by omega)
    (iblk m c 0 t) (iblk m c 1 t) (iblk m c 2 t) (iblk m c 3 t) p q r o (by omega) (fun k => ?_) (fun k => ?_) (fun k => ?_) ?_
  · show xarr m c (((cfg0.win 0).blk t).view.emb (ix2 p k)) = xarr m c (ix2 r k)
    refine congrArg (xarr m c) (funext fun a => Fin.ext ?_)
    match a with
    | ⟨0, _⟩ => show win0_0.index t (0 : Fin 2) * 1024 + 1 * p.val = r.val; omega
    | ⟨1, _⟩ => show win0_0.index t (1 : Fin 2) * 4096 + 1 * k.val = k.val; omega
  · show warr m c (((cfg0.win 1).blk t).view.emb (ix2 q k)) = warr m c (ix2 o k)
    refine congrArg (warr m c) (funext fun a => Fin.ext ?_)
    match a with
    | ⟨0, _⟩ => show win0_1.index t (0 : Fin 2) * 128 + 1 * q.val = o.val; omega
    | ⟨1, _⟩ => show win0_1.index t (1 : Fin 2) * 4096 + 1 * k.val = k.val; omega
  · show sarr m c (((cfg0.win 2).blk t).view.emb (ix2 j (colBlock k))) = sarr m c (ix2 j (colBlock k))
    refine congrArg (sarr m c) (funext fun a => Fin.ext ?_)
    match a with
    | ⟨0, _⟩ => show win0_2.index t (0 : Fin 2) * 48 + 1 * j.val = j.val; omega
    | ⟨1, _⟩ => show win0_2.index t (1 : Fin 2) * 32 + 1 * (colBlock k).val = (colBlock k).val; omega
  · show barr m c (((cfg0.win 3).blk t).view.emb (ix1 q)) = barr m c (ix1 o)
    refine congrArg (barr m c) (funext fun a => Fin.ext ?_)
    match a with
    | ⟨0, _⟩ => show win0_3.index t (0 : Fin 1) * 128 + 1 * q.val = o.val; omega

/-! ## The blocks tile the array -/

/-- An index of the [8192, 6144] array is in point `t`'s block iff each coordinate is in the block's range. -/
theorem mem_blk (t : Fin cfg0.N) (i : S8192x6144.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v3).slice (win0_4.rect t)).set ↔ _
  rw [View.set_slice_whole, Rect.mem_set_unit]
  exact Iff.rfl

/-- Every index is in the block of the point (row / 1024, feature / 128), and every point writes back. -/
theorem covered (i : S8192x6144.Idx) :
    ∃ t : Fin cfg0.N, (cfg0.win 4).flush t = true ∧ i ∈ ((cfg0.win 4).blk t).view.set := by
  have hi0 : (i 0).val < 8192 := (i 0).isLt
  have hi1 : (i 1).val < 6144 := (i 1).isLt
  have hN : grid0.N = 384 := N_0
  obtain ⟨t, ht⟩ : ∃ t : Fin cfg0.N, t.val = (i 0).val / 1024 * 48 + (i 1).val / 128 :=
    ⟨⟨(i 0).val / 1024 * 48 + (i 1).val / 128, by show _ < grid0.N; omega⟩, rfl⟩
  obtain ⟨e40, e41, -⟩ := idx_facts t
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 128 ≤ (i 1).val ∧ (i 1).val < win0_4.index t (1 : Fin 2) * 128 + 128; omega

/-- THE ARRAY after the region: the layer over the merged rows, of the arrays as the region finds them. -/
theorem final (c : Dev nD) :
    (dats m 0 c).arrAt 4 cfg0.N = tiled (xarr m c) (warr m c) (sarr m c) (barr m c) :=
  (dats m 0 c).arrAt_eq_of_cover 4 (tiled (xarr m c) (warr m c) (sarr m c) (barr m c)) (fun t _ => flushed_eq m c t) covered

/-! ## The host operations around the region -/

/-- Before the region the host merges batch and position of `x` into 8192 rows and changes its format; -/
theorem xarr_eq (c : Dev nD) :
    xarr m c = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v1) = _
  after_results
  rfl

/-- it changes the weight's format; -/
theorem warr_eq (c : Dev nD) :
    warr m c = truncf .bf16 (m ((c : Thread nD τ).loc main_arg1)) bitsLt_bf16_f32 := by
  show StableHlo.after hostOps0 (fun b => m (c, b)) (Proc.devRef .tc main_v2) = _
  after_results

/-- and the scale table and the biases reach the region as launched. -/
theorem sarr_eq (c : Dev nD) : sarr m c = m ((c : Thread nD τ).loc main_arg2) := V_main_arg2 m c
theorem barr_eq (c : Dev nD) : barr m c = m ((c : Thread nD τ).loc main_arg3) := V_main_arg3 m c

/-- Row `b · 2048 + s` of the merged `x` is `x[b, s, ·]`; the change of format is the identity on the extended reals. -/
theorem xarr_apply (c : Dev nD) (b : Fin 4) (s : Fin 2048) (k : Fin 4096) (r : Fin 8192) (hr : r.val = b.val * 2048 + s.val) :
    xarr m c (ix2 r k) = m ((c : Thread nD τ).loc main_arg0) (ix3 b s k) := by
  refine (congrFun (xarr_eq m c) (ix2 r k)).trans ?_
  rw [truncf_apply]
  refine shapeCast_apply _ _ (ix2 r k) (ix3 b s k) ?_
  rw [Shape.rowMajor_val_three, Shape.rowMajor_val_two]
  show (b.val * 2048 + s.val) * 4096 + k.val = r.val * 4096 + k.val
  rw [hr]

theorem warr_apply (c : Dev nD) (o : Fin 6144) (k : Fin 4096) :
    warr m c (ix2 o k) = m ((c : Thread nD τ).loc main_arg1) (ix2 o k) := by
  refine (congrFun (warr_eq m c) (ix2 o k)).trans ?_
  rw [truncf_apply]

/-- After the region the host splits the 8192 rows back into batch and position. -/
theorem tail_eq (c : Dev nD) :
    Pipeline.afterTail₀ cfgs (dats m) 0 (V0 m) [hostOps1] c main_v4
      = shapeCast S4x2048x6144 ((dats m 0 c).arrAt 4 cfg0.N) shapeCasts_S8192x6144_S4x2048x6144 := by
  unfold Pipeline.afterTail₀
  show StableHlo.after hostOps1 _ (Proc.devRef .tc main_v4) = _
  after_results
  funext i
  exact congrFun (congrArg (fun z => shapeCast S4x2048x6144 z shapeCasts_S8192x6144_S4x2048x6144)
    (Pipeline.withArrays_arr spec0 launch0.win.arr_inj c (V0 m c) (fun w => (dats m 0 c).arrAt w cfg0.N) 4)) i

/-! ## The result, and the run -/

/-- The layer over the merged rows, of the arrays the region finds, split back into batch and position, is the
    block-scaled linear layer of the four arguments as launched. -/
theorem result_eq (c : Dev nD) :
    shapeCast S4x2048x6144 (tiled (xarr m c) (warr m c) (sarr m c) (barr m c)) shapeCasts_S8192x6144_S4x2048x6144
      = scaledLinear (m ((c : Thread nD τ).loc main_arg0)) (m ((c : Thread nD τ).loc main_arg1))
          (m ((c : Thread nD τ).loc main_arg2)) (m ((c : Thread nD τ).loc main_arg3)) := by
  funext i
  obtain ⟨b, s, o, rfl⟩ : ∃ (b : Fin 4) (s : Fin 2048) (o : Fin 6144), i = ix3 b s o := ⟨i 0, i 1, i 2, eq_ix3 i⟩
  have hb := b.isLt
  have hs := s.isLt
  obtain ⟨r, hr⟩ : ∃ r : Fin 8192, r.val = b.val * 2048 + s.val := ⟨⟨_, by omega⟩, rfl⟩
  refine (shapeCast_apply _ _ (ix3 b s o) (ix2 r o) ?_).trans ?_
  · rw [Shape.rowMajor_val_three, Shape.rowMajor_val_two]
    show r.val * 6144 + o.val = (b.val * 2048 + s.val) * 6144 + o.val
    rw [hr]
  show tiledAt (xarr m c) (warr m c) (sarr m c) (barr m c) r o = scaledLinearAt _ _ _ _ b s o
  unfold tiledAt scaledLinearAt
  refine congrArg₂ (· + ·) (Finset.sum_congr rfl fun k _ => ?_) (congrFun (barr_eq m c) (ix1 o))
  rw [xarr_apply m c b s k r hr, warr_apply m c o k, congrFun (sarr_eq m c) (ix2 (rowBlock o) (colBlock k))]

/-- THE RUN of the idealized kernel: every weakly fair execution terminates with the result at the block-scaled
    linear layer of the arguments as launched, and the arguments unchanged. -/
theorem run : θ_run defs (onTc (τ := τ) (main (F := Ideal))) ⟨m, fun _ => 0, ρ⟩ fun r => ∀ c : Dev nD,
      r.2.mem ((c : Thread nD τ).loc main_v4) = scaledLinear (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      ((h c).2 main_v4 (Pipeline.mem_restRefs_of main_v4 (by decide) (by decide))).trans
        ((tail_eq m c).trans ((congrArg (fun z => shapeCast S4x2048x6144 z shapeCasts_S8192x6144_S4x2048x6144) (final m c)).trans
          (result_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KValue

end
-- ==== Proof.lean ====
/-
  A linear layer whose weight carries one scale per 128 × 128 block, as a tiled kernel and as plain array code.

  Both programs compute, over the extended reals,
      out[b, s, o] = (∑ k < 4096, x[b, s, k] · (w[o, k] · scale[o / 128, k / 128])) + bias[o]
  for x : [4, 2048, 4096], w : [6144, 4096], scale : [48, 32], bias : [6144] (`Cert.ScaledLinear.scaledLinear`).

  The reference repeats every scale over its block, multiplies the weight by the repeated table, contracts and adds the
  bias: read at an index that is the formula above (Proof/RefValue.lean).

  The kernel merges batch and position into 8192 rows and walks an 8 × 48 grid of [1024, 128] output tiles. The tile in
  column `j` holds the 128 output features of row block `j` of the scale table, so one row of the table serves the whole
  tile; the body selects it by summing the table against the indicator of row `j`, which keeps exactly that row because
  `a · 0 = 0` and `a · 1 = a` for every extended real `a`, repeats each of its 32 entries 128 times, scales the weight
  block by the result and contracts it with the `x` block (Proof/Payload.lean). The tiles cover the [8192, 6144] array
  once each, and splitting the rows back into batch and position gives the formula (Proof/KernelValue.lean).

  The two sums are equal term by term, so no law of arithmetic beyond the indicator's is needed and the inputs'
  finiteness is never used. The idealization rewrote no operation, so there is nothing to preserve.
-/
import proofs.«169020_j24988119728555_1_alg».proof.Defs
import proofs.«169020_j24988119728555_1_alg».proof.Proof.Gen.Kernel
import proofs.«169020_j24988119728555_1_alg».proof.Proof.Gen.Kernel.Skeleton
import proofs.«169020_j24988119728555_1_alg».proof.Proof.Gen.Kernel.Launch
import proofs.«169020_j24988119728555_1_alg».proof.Proof.Gen.Kernel.Points
import proofs.«169020_j24988119728555_1_alg».proof.Proof.KernelFrame
import proofs.«169020_j24988119728555_1_alg».proof.Proof.Gen.KernelIdeal
import proofs.«169020_j24988119728555_1_alg».proof.Proof.Gen.KernelIdeal.Skeleton
import proofs.«169020_j24988119728555_1_alg».proof.Proof.Gen.KernelIdeal.Launch
import proofs.«169020_j24988119728555_1_alg».proof.Proof.Gen.KernelIdeal.Points
import proofs.«169020_j24988119728555_1_alg».proof.Proof.KernelIdealFrame
import proofs.«169020_j24988119728555_1_alg».proof.Proof.Gen.ReferenceIdeal
import proofs.«169020_j24988119728555_1_alg».proof.Proof.Gen.ReferenceIdeal.Run
import proofs.«169020_j24988119728555_1_alg».proof.Proof.Gen.ReferenceIdeal.Read
import proofs.«169020_j24988119728555_1_alg».proof.Proof.Gen.Pre_finite_inputs
import proofs.«169020_j24988119728555_1_alg».proof.Proof.Spec
import proofs.«169020_j24988119728555_1_alg».proof.Proof.RefValue
import proofs.«169020_j24988119728555_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the block-scaled linear layer of their arguments, and the
    arguments agree. -/
theorem algebraic : Cert.algebraic_KernelIdeal_ReferenceIdeal := by
  intro m ρ m' ρ' _ hagree
  refine ⟨fun c => Cert.ScaledLinear.scaledLinear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
